-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S8192 : Shape := ⟨1, ![8192]⟩
abbrev S512x3 : Shape := ⟨2, ![512, 3]⟩
abbrev S512 : Shape := ⟨1, ![512]⟩
abbrev S512x1 : Shape := ⟨2, ![512, 1]⟩
abbrev S512x512 : Shape := ⟨2, ![512, 512]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512, .f32⟩
  | .local _ .vmem, ⟨5, _⟩ => ⟨S512, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512_S512_0 : ∀ a, (![0] : Fin 1 → Nat) a + S512.size a ≤ S512.size a
  h_S512 : 0 < S512.numel
  inb_S512x3_S512x3_0_0 : ∀ a, (![0, 0] : Fin 2 → Nat) a + S512x3.size a ≤ S512x3.size a
  h_S512x3 : 0 < S512x3.numel
  reduces_S512x3_S512 : S512x3.Reduces [1] S512
  shapeCasts_S512_S512x1 : S512.ShapeCasts S512x1
  broadcasts_S512x1_S512x512 : S512x1.Broadcasts S512x512
  reduces_S512x512_S512 : S512x512.Reduces [0] S512
  shapeCasts_S512_S512 : S512.ShapeCasts S512
  reducesTo_S8192_S_d0 : S8192.ReducesTo [0] S_
  h_S_ : 0 < S_.numel
  dot_S512x3_S512x3_S512x512_1_1_0_0_n_n_wf : DotDims.WF S512x3 S512x3 S512x512 [1] [1] [0] [0] [] []
  dot_S512x1_S512x1_S512x512_1_1_0_0_n_n_wf : DotDims.WF S512x1 S512x1 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S8192x3.size a
  hwx0_0 : ∀ i : grid0.Coords, EltTy.bits .f32 = 32 ∨ (Rect.block (s := S8192x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S8192x3.size a
  hwx0_1 : ∀ i : grid0.Coords, EltTy.bits .f32 = 32 ∨ (Rect.block (s := S8192x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)

variable [Facts₀]

def dot_S512x3_S512x3_S512x512_1_1_0_0_n_n : DotDims S512x3 S512x3 S512x512 where
  lhsContracting := [1]
  rhsContracting := [1]
  lhsNonContracting := [0]
  rhsNonContracting := [0]
  lhsBatch := []
  rhsBatch := []
  wf := dot_S512x3_S512x3_S512x512_1_1_0_0_n_n_wf
def dot_S512x1_S512x1_S512x512_1_1_0_0_n_n : DotDims S512x1 S512x1 S512x512 where
  lhsContracting := [1]
  rhsContracting := [1]
  lhsNonContracting := [0]
  rhsNonContracting := [0]
  lhsBatch := []
  rhsBatch := []
  wf := dot_S512x1_S512x1_S512x512_1_1_0_0_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192 : Shape := ⟨1, ![8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  reducesTo_S8192x8192_S8192_d0 : S8192x8192.ReducesTo [0] S8192
  reducesTo_S8192_S_d0 : S8192.ReducesTo [0] S_

variable [Facts₀]

class Facts : Prop extends Facts₀ where

variable [Facts]
-- ==== Proof.LibExtendedReal.lean ====
/-
  General facts about float values read as extended reals, free of any program.

  * `ofBits_two_f32`, `ofBits_inf_f32`: the f32 patterns `0x40000000` and `0x7F800000` are the real `2` and `+∞ = ⊤`.
  * `two_mul_eq_add_self`: `2·x = x + x` for EVERY extended real (the extended reals are not a semiring, so this is
    not `two_mul`; it holds at `±∞` by the conventions `2·⊤ = ⊤ = ⊤ + ⊤`, `2·⊥ = ⊥ = ⊥ + ⊥`).
  * `le_fold_minimumf_iff`: a `Finset.fold` of the ideal `minimumf` is the greatest lower bound of its initial value
    and its terms — `z ≤ fold ↔ z ≤ init ∧ ∀ x ∈ s, z ≤ f x`. Two minima taken in different orders or groupings (a
    tiled running minimum against one whole-axis reduce) are compared through this property and `eq_of_forall_le_iff`,
    never fold against fold. A `vector.multi_reduction <minimumf>` reaches this form by
    `multiReduction_minimumf_eq_fold` + `Shape.Reduces.fold_filter_drop_single`, a host `reduce … minimum` by
    `Host.reduce_eq_fold_single`.
  * `real_of_abs_lt_inf`: an extended real whose absolute value compares below `+∞` (one element of the printed
    "every input finite" predicate) is a real number.
-/
import Idealize.ShloMosaic.PureOps.Ideal
import Idealize.ShloMosaic.PureOps.Ideal.Laws

noncomputable section

namespace Cert.ExtendedReal

open Idealize.ShloMosaic

/-- The f32 pattern `0x40000000` is the real two. -/
theorem ofBits_two_f32 : Ideal.ofBits .f32 0x40000000#32 = ((2 : ℝ) : EReal) := by
  simp [Ideal.ofBits, Ideal.ieee, -EReal.coe_mul]; norm_num

/-- The f32 pattern `0x7F800000` is `+∞`, the top of the extended reals. -/
theorem ofBits_inf_f32 : Ideal.ofBits .f32 0x7F800000#32 = (⊤ : EReal) := by
  simp [Ideal.ofBits, Ideal.ieee]

/-- Twice an extended real is the extended real added to itself — at `±∞` as well. -/
theorem two_mul_eq_add_self (x : EReal) : ((2 : ℝ) : EReal) * x = x + x := by
  induction x using EReal.rec with
  | bot => rw [EReal.coe_mul_bot_of_pos (by norm_num)]; rfl
  | coe r => rw [← EReal.coe_mul, ← EReal.coe_add]; exact congrArg _ (two_mul r)
  | top => rw [EReal.coe_mul_top_of_pos (by norm_num)]; rfl

/-- An extended real is below a fold of the ideal `minimumf` exactly when it is below the initial value and below
    every term: the fold is the greatest lower bound, whatever order it was taken in. -/
theorem le_fold_minimumf_iff {ι : Type} [DecidableEq ι] (s : Finset ι) (f : ι → EReal) (b z : EReal) :
    z ≤ s.fold (FloatOps.minimumf (F := Ideal) (φ := .f32)) b f ↔ z ≤ b ∧ ∀ x ∈ s, z ≤ f x := by
  induction s using Finset.induction_on with
  | empty => simp
  | insert a s ha ih =>
    rw [Finset.fold_insert ha]
    show z ≤ min (f a) _ ↔ _
    rw [le_min_iff, ih, Finset.forall_mem_insert]
    tauto

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  have h' : BitVec.ofBool (decide (max x (-x) < Ideal.ofBits .f32 0x7F800000#32)) = 1#1 := h
  rw [ofBits_inf_f32] at h'
  have hlt : max x (-x) < ⊤ := by
    by_contra hn
    rw [decide_eq_false hn] at h'
    exact absurd h' (by decide)
  induction x using EReal.rec with
  | bot => simp at hlt
  | coe r => exact ⟨r, rfl⟩
  | top => simp at hlt

end Cert.ExtendedReal

end
-- ==== Proof.Distance.lean ====
/-
  The mathematics of the pairwise distance, on the extended reals, free of any program.

  For two points `a b : Fin 3 → EReal` there are two spellings of their Euclidean distance:
    * `dist a b    = √(0 + ∑ₖ (aₖ - bₖ)·(aₖ - bₖ))`                      (differences squared, summed);
    * `distExp a b = √(max (∑ₖ aₖ·aₖ + ∑_{u : Fin 1} 1·(∑ₖ bₖ·bₖ) - 2·∑ₖ aₖ·bₖ) 0)`  (the expanded square, clamped at 0).
  On REAL coordinates the two agree: `|a|² + |b|² - 2⟨a,b⟩ = |a - b|² ≥ 0`, so the clamp is the identity. At an
  infinite coordinate they need not (`⊤ - ⊤`), which is why the agreement is stated for real points only.

  (Doubling on the extended reals, the literals' values and the universal property of a fold of `min` are in
  LibExtendedReal.lean and re-exported from this namespace.)
-/
import proofs.«126578_j16741782520028_1_alg».proof.Proof.LibExtendedReal
import Idealize.ShloMosaic.PureOps.Ideal
import Idealize.ShloMosaic.PureOps.Ideal.Laws
import Idealize.ShloMosaic.Lib.IdealHost

noncomputable section

namespace Cert.PairDist

open Idealize.ShloMosaic

export Cert.ExtendedReal (ofBits_two_f32 ofBits_inf_f32 two_mul_eq_add_self le_fold_minimumf_iff)

/-! ## The two spellings of the distance -/

/-- The distance of two points: the root of the summed squared differences (the sum taken from `0`). -/
def dist (a b : Fin 3 → EReal) : EReal :=
  Ideal.sqrt (0 + ∑ k : Fin 3, (a k - b k) * (a k - b k))

/-- The same through the expanded square `|a|² + |b|² - 2⟨a,b⟩`, clamped below at `0` before the root; the
    middle term carries a one-term sum with a unit factor. -/
def distExp (a b : Fin 3 → EReal) : EReal :=
  Ideal.sqrt (max ((∑ k : Fin 3, a k * a k) + (∑ _u : Fin 1, 1 * ∑ k : Fin 3, b k * b k)
    - ((2 : ℝ) : EReal) * ∑ k : Fin 3, a k * b k) 0)

/-- The expanded square is the square of the difference, on the reals. -/
theorem expand_sq (a b : Fin 3 → ℝ) :
    (a 0 * a 0 + a 1 * a 1 + a 2 * a 2) + 1 * (b 0 * b 0 + b 1 * b 1 + b 2 * b 2)
      - 2 * (a 0 * b 0 + a 1 * b 1 + a 2 * b 2)
    = (a 0 - b 0) * (a 0 - b 0) + (a 1 - b 1) * (a 1 - b 1) + (a 2 - b 2) * (a 2 - b 2) := by ring

/-- A sum of three squares is not negative. -/
theorem sq_sum_nonneg (a b : Fin 3 → ℝ) :
    0 ≤ (a 0 - b 0) * (a 0 - b 0) + (a 1 - b 1) * (a 1 - b 1) + (a 2 - b 2) * (a 2 - b 2) := by
  have h0 := mul_self_nonneg (a 0 - b 0); have h1 := mul_self_nonneg (a 1 - b 1); have h2 := mul_self_nonneg (a 2 - b 2)
  linarith

/-- On real points the two spellings agree: the expanded square IS the squared difference, which is not negative,
    so clamping it at `0` changes nothing. -/
theorem distExp_eq_dist (a b : Fin 3 → ℝ) :
    distExp (fun k => ((a k : ℝ) : EReal)) (fun k => ((b k : ℝ) : EReal))
      = dist (fun k => ((a k : ℝ) : EReal)) (fun k => ((b k : ℝ) : EReal)) := by
  unfold distExp dist
  simp only [Fin.sum_univ_three, Fin.sum_univ_one]
  have hl : ((a 0 : EReal) * a 0 + (a 1 : EReal) * a 1 + (a 2 : EReal) * a 2)
        + 1 * ((b 0 : EReal) * b 0 + (b 1 : EReal) * b 1 + (b 2 : EReal) * b 2)
        - ((2 : ℝ) : EReal) * ((a 0 : EReal) * b 0 + (a 1 : EReal) * b 1 + (a 2 : EReal) * b 2)
      = (((a 0 - b 0) * (a 0 - b 0) + (a 1 - b 1) * (a 1 - b 1) + (a 2 - b 2) * (a 2 - b 2) : ℝ) : EReal) := by
    rw [← expand_sq a b]
    rw [show (1 : EReal) = ((1 : ℝ) : EReal) from rfl]
    simp only [← EReal.coe_mul, ← EReal.coe_add, ← EReal.coe_sub]
  have hr : (0 : EReal) + (((a 0 : EReal) - b 0) * ((a 0 : EReal) - b 0) + ((a 1 : EReal) - b 1) * ((a 1 : EReal) - b 1)
        + ((a 2 : EReal) - b 2) * ((a 2 : EReal) - b 2))
      = (((a 0 - b 0) * (a 0 - b 0) + (a 1 - b 1) * (a 1 - b 1) + (a 2 - b 2) * (a 2 - b 2) : ℝ) : EReal) := by
    rw [zero_add]
    simp only [← EReal.coe_mul, ← EReal.coe_add, ← EReal.coe_sub]
  rw [hl, hr, max_eq_left (EReal.coe_nonneg.mpr (sq_sum_nonneg a b))]

end Cert.PairDist

end
-- ==== Proof.TileMin.lean ====
/-
  What one grid point stores, read at an index at the ideal values.

  The body's stored vector is, at lane `j` of 512, the minimum of what the output block held before (`prev j`) and
  of the column minimum over the tile's 512 rows `r` of the distance `distExp (row r of the first block) (row j of the
  second block)`: the first block's rows' squared norms broadcast along the lanes, plus the second block's rows' squared
  norms laid along the lanes by a one-term contraction with a column of ones, minus twice the 3-term contraction of the
  two blocks, clamped at zero, rooted, and reduced by `min` down the rows from `+∞`.

  The stages are named here (generic in the float instance) so that the stored vector is their composition by
  definition; each stage is then read at an index at the ideal values, and the last lemma states the stored value by its
  universal property: `z` is below it iff `z ≤ prev j` and `z` is below every row's distance.
-/
import proofs.«126578_j16741782520028_1_alg».proof.Proof.Gen.KernelIdeal.Skeleton
import proofs.«126578_j16741782520028_1_alg».proof.Proof.Distance
import Idealize.ShloMosaic.Lib.ValueIdx
import Idealize.ShloMosaic.Lib.Pipeline.Value
import Idealize.ShloMosaic.PureOps.Ideal.Laws

noncomputable section

namespace Cert.KernelIdeal.TileMin

open Idealize.ShloMosaic Idealize.ShloMosaic.ValueIdx Cert.KernelIdeal Cert.KernelIdeal.Gen Cert.PairDist

/-! ## The stages, at any float instance -/

section Stages
variable {F : FTy → Type} [FloatOps F]

/-- Each row's squared norm: the lane sum of the block times itself. -/
def rowSq (x : FVec F S512x3 .f32) : FVec F S512 .f32 :=
  multiReduction .add [1] S512 (mulf x x) 0x00000000#32 reduces_S512x3_S512 (.inl rfl) rfl

/-- The inner products of the first block's rows with the second block's rows (contraction over the 3 coordinates). -/
def gram (x0 x1 : FVec F S512x3 .f32) : FVec F S512x512 .f32 :=
  matmul dot_S512x3_S512x3_S512x512_1_1_0_0_n_n (some .fp32) x0 x1 (constant S512x512 .f32 0x00000000#32)

/-- The second block's squared norms laid along the lanes: a column of ones contracted (over ONE term) with them. -/
def laneNorm (x1 : FVec F S512x3 .f32) : FVec F S512x512 .f32 :=
  matmul dot_S512x1_S512x1_S512x512_1_1_0_0_n_n (some .fp32) (broadcast S512x1 (Scalar.ofBits .f32 0x3F800000#32))
    (shapeCast S512x1 (rowSq x1) shapeCasts_S512_S512x1) (constant S512x512 .f32 0x00000000#32)

/-- The tile of distances: expanded square, clamped at zero, rooted. -/
def tileDist (x0 x1 : FVec F S512x3 .f32) : FVec F S512x512 .f32 :=
  sqrt (maximumf (subf (addf (broadcastTo S512x512 (shapeCast S512x1 (rowSq x0) shapeCasts_S512_S512x1) broadcasts_S512x1_S512x512)
      (laneNorm x1)) (mulf (broadcast S512x512 (Scalar.ofBits .f32 0x40000000#32)) (gram x0 x1)))
    (broadcast S512x512 (Scalar.ofBits .f32 0x00000000#32)))

/-- The stored vector is: the previous contents against the tile's column minimum (from `+∞`). -/
theorem pay2_eq (x0 x1 : FVec F S512x3 .f32) (prev : FVec F S512 .f32) :
    k0_pay2 x0 x1 prev = minimumf (shapeCast S512 prev shapeCasts_S512_S512)
      (multiReduction .minimumf [0] S512 (tileDist x0 x1) 0x7F800000#32 reduces_S512x512_S512 (.inl rfl) rfl) := rfl

end Stages

/-! ## Index bookkeeping -/

/-- Inserting lane coordinate `k` after row `r`: the index `(r, k)`. -/
theorem lift_lane {n : Nat} (h : (⟨2, ![512, n]⟩ : Shape).Reduces [1] ⟨1, ![512]⟩) (r : Fin 512) (k : Fin n) :
    h.lift (ix1 r) k = ix2 r k := by
  funext a; apply Fin.ext
  match a with
  | ⟨0, _⟩ => rfl
  | ⟨1, _⟩ => rfl

/-- Inserting row coordinate `r` before lane `j`: the index `(r, j)`. -/
theorem lift_row (h : (⟨2, ![512, 512]⟩ : Shape).Reduces [0] ⟨1, ![512]⟩) (j : Fin 512) (r : Fin 512) :
    h.lift (ix1 j) r = ix2 r j := by
  funext a; apply Fin.ext
  match a with
  | ⟨0, _⟩ => rfl
  | ⟨1, _⟩ => rfl

/-- A vector of 512 cast to a 512 × 1 column reads, at `(r, u)`, the vector at `r`. -/
theorem column_apply {α : Type} (v : (⟨1, ![512]⟩ : Shape).Idx → α) (h : (⟨1, ![512]⟩ : Shape).ShapeCasts ⟨2, ![512, 1]⟩)
    (r : Fin 512) (u : Fin 1) : shapeCast ⟨2, ![512, 1]⟩ v h (ix2 r u) = v (ix1 r) := by
  refine shapeCast_apply v h (ix2 r u) (ix1 r) ?_
  rw [Shape.rowMajor_val_one, Shape.rowMajor_val_two]
  show r.val = r.val * 1 + u.val
  have := u.isLt; omega

/-- A 512 × 1 column broadcast along 512 lanes reads, at `(r, j)`, the column at `(r, 0)`. -/
theorem lanes_apply {α : Type} (v : (⟨2, ![512, 1]⟩ : Shape).Idx → α) (h : (⟨2, ![512, 1]⟩ : Shape).Broadcasts ⟨2, ![512, 512]⟩)
    (r j : Fin 512) : broadcastTo ⟨2, ![512, 512]⟩ v h (ix2 r j) = v (ix2 r (0 : Fin 1)) := by
  refine broadcastTo_apply v h (ix2 r j) (ix2 r (0 : Fin 1)) (fun a => ?_)
  match a with
  | ⟨0, _⟩ => show r.val = if (512 : Nat) = 1 then 0 else r.val; rw [if_neg (by decide)]
  | ⟨1, _⟩ => show 0 = if (1 : Nat) = 1 then 0 else j.val; rw [if_pos rfl]

/-! ## The two contractions' operand indices -/

theorem lhs_gram_0 (i : S512x512.Idx) (q : dot_S512x3_S512x3_S512x512_1_1_0_0_n_n.contr.Idx) :
    (dot_S512x3_S512x3_S512x512_1_1_0_0_n_n.lhsIdx i q 0).val = (i 0).val := by
  unfold DotDims.lhsIdx
  rw [dif_neg (show ¬(0 : Fin S512x3.rank) ∈ dot_S512x3_S512x3_S512x512_1_1_0_0_n_n.lhsBatch by decide),
    dif_pos (show (0 : Fin S512x3.rank) ∈ dot_S512x3_S512x3_S512x512_1_1_0_0_n_n.lhsNonContracting by decide)]
  rfl
theorem lhs_gram_1 (i : S512x512.Idx) (q : dot_S512x3_S512x3_S512x512_1_1_0_0_n_n.contr.Idx) :
    (dot_S512x3_S512x3_S512x512_1_1_0_0_n_n.lhsIdx i q 1).val = (q ⟨0, by decide⟩).val :=
  dot_S512x3_S512x3_S512x512_1_1_0_0_n_n.lhsIdx_val_of_single rfl i q
theorem rhs_gram_0 (i : S512x512.Idx) (q : dot_S512x3_S512x3_S512x512_1_1_0_0_n_n.contr.Idx) :
    (dot_S512x3_S512x3_S512x512_1_1_0_0_n_n.rhsIdx i q 0).val = (i 1).val := by
  unfold DotDims.rhsIdx
  rw [dif_neg (show ¬(0 : Fin S512x3.rank) ∈ dot_S512x3_S512x3_S512x512_1_1_0_0_n_n.rhsBatch by decide),
    dif_pos (show (0 : Fin S512x3.rank) ∈ dot_S512x3_S512x3_S512x512_1_1_0_0_n_n.rhsNonContracting by decide)]
  rfl
theorem rhs_gram_1 (i : S512x512.Idx) (q : dot_S512x3_S512x3_S512x512_1_1_0_0_n_n.contr.Idx) :
    (dot_S512x3_S512x3_S512x512_1_1_0_0_n_n.rhsIdx i q 1).val = (q ⟨0, by decide⟩).val :=
  dot_S512x3_S512x3_S512x512_1_1_0_0_n_n.rhsIdx_val_of_single rfl i q

theorem lhs_lane_0 (i : S512x512.Idx) (q : dot_S512x1_S512x1_S512x512_1_1_0_0_n_n.contr.Idx) :
    (dot_S512x1_S512x1_S512x512_1_1_0_0_n_n.lhsIdx i q 0).val = (i 0).val := by
  unfold DotDims.lhsIdx
  rw [dif_neg (show ¬(0 : Fin S512x1.rank) ∈ dot_S512x1_S512x1_S512x512_1_1_0_0_n_n.lhsBatch by decide),
    dif_pos (show (0 : Fin S512x1.rank) ∈ dot_S512x1_S512x1_S512x512_1_1_0_0_n_n.lhsNonContracting by decide)]
  rfl
theorem lhs_lane_1 (i : S512x512.Idx) (q : dot_S512x1_S512x1_S512x512_1_1_0_0_n_n.contr.Idx) :
    (dot_S512x1_S512x1_S512x512_1_1_0_0_n_n.lhsIdx i q 1).val = (q ⟨0, by decide⟩).val :=
  dot_S512x1_S512x1_S512x512_1_1_0_0_n_n.lhsIdx_val_of_single rfl i q
theorem rhs_lane_0 (i : S512x512.Idx) (q : dot_S512x1_S512x1_S512x512_1_1_0_0_n_n.contr.Idx) :
    (dot_S512x1_S512x1_S512x512_1_1_0_0_n_n.rhsIdx i q 0).val = (i 1).val := by
  unfold DotDims.rhsIdx
  rw [dif_neg (show ¬(0 : Fin S512x1.rank) ∈ dot_S512x1_S512x1_S512x512_1_1_0_0_n_n.rhsBatch by decide),
    dif_pos (show (0 : Fin S512x1.rank) ∈ dot_S512x1_S512x1_S512x512_1_1_0_0_n_n.rhsNonContracting by decide)]
  rfl
theorem rhs_lane_1 (i : S512x512.Idx) (q : dot_S512x1_S512x1_S512x512_1_1_0_0_n_n.contr.Idx) :
    (dot_S512x1_S512x1_S512x512_1_1_0_0_n_n.rhsIdx i q 1).val = (q ⟨0, by decide⟩).val :=
  dot_S512x1_S512x1_S512x512_1_1_0_0_n_n.rhsIdx_val_of_single rfl i q

/-! ## The stages at an index, at the ideal values -/

/-- A row's squared norm is the sum of its three coordinates' squares. -/
theorem rowSq_apply (x : FVec Ideal S512x3 .f32) (r : Fin 512) :
    rowSq (F := Ideal) x (ix1 r) = ∑ k : Fin 3, x (ix2 r k) * x (ix2 r k) := by
  unfold rowSq
  refine (Ideal.multiReduction_add_single (mulf x x) 0x00000000#32 reduces_S512x3_S512 (.inl rfl) rfl (ix1 r)).trans ?_
  refine Finset.sum_congr rfl fun k _ => ?_
  rw [lift_lane reduces_S512x3_S512 r k]
  rfl

/-- The inner product of row `r` of the first block with row `j` of the second. -/
theorem gram_apply (x0 x1 : FVec Ideal S512x3 .f32) (r j : Fin 512) :
    gram (F := Ideal) x0 x1 (ix2 r j) = ∑ k : Fin 3, x0 (ix2 r k) * x1 (ix2 j k) := by
  unfold gram
  simp only [matmul]
  rw [Ideal.matmul_constant_zero_apply, ← Equiv.sum_comp (ValueIdx.contrEquiv1 dot_S512x3_S512x3_S512x512_1_1_0_0_n_n 3 rfl rfl).symm]
  refine Finset.sum_congr rfl fun k _ => ?_
  have hk := ValueIdx.contrEquiv1_symm_val dot_S512x3_S512x3_S512x512_1_1_0_0_n_n 3 rfl rfl k
  have el : dot_S512x3_S512x3_S512x512_1_1_0_0_n_n.lhsIdx (ix2 r j) ((ValueIdx.contrEquiv1 dot_S512x3_S512x3_S512x512_1_1_0_0_n_n 3 rfl rfl).symm k)
      = ix2 r k := funext fun a => Fin.ext (by
    match a with
    | ⟨0, _⟩ => exact lhs_gram_0 _ _
    | ⟨1, _⟩ => exact (lhs_gram_1 _ _).trans hk)
  have er : dot_S512x3_S512x3_S512x512_1_1_0_0_n_n.rhsIdx (ix2 r j) ((ValueIdx.contrEquiv1 dot_S512x3_S512x3_S512x512_1_1_0_0_n_n 3 rfl rfl).symm k)
      = ix2 j k := funext fun a => Fin.ext (by
    match a with
    | ⟨0, _⟩ => exact rhs_gram_0 _ _
    | ⟨1, _⟩ => exact (rhs_gram_1 _ _).trans hk)
  rw [el, er]

/-- The lane-laid squared norm at `(r, j)`: the one-term sum of `1` times row `j`'s squared norm. -/
theorem laneNorm_apply (x1 : FVec Ideal S512x3 .f32) (r j : Fin 512) :
    laneNorm (F := Ideal) x1 (ix2 r j) = ∑ _u : Fin 1, 1 * ∑ k : Fin 3, x1 (ix2 j k) * x1 (ix2 j k) := by
  unfold laneNorm
  simp only [matmul]
  rw [Ideal.matmul_constant_zero_apply, ← Equiv.sum_comp (ValueIdx.contrEquiv1 dot_S512x1_S512x1_S512x512_1_1_0_0_n_n 1 rfl rfl).symm]
  refine Finset.sum_congr rfl fun u _ => ?_
  have hk := ValueIdx.contrEquiv1_symm_val dot_S512x1_S512x1_S512x512_1_1_0_0_n_n 1 rfl rfl u
  have er : dot_S512x1_S512x1_S512x512_1_1_0_0_n_n.rhsIdx (ix2 r j) ((ValueIdx.contrEquiv1 dot_S512x1_S512x1_S512x512_1_1_0_0_n_n 1 rfl rfl).symm u)
      = ix2 j u := funext fun a => Fin.ext (by
    match a with
    | ⟨0, _⟩ => exact rhs_lane_0 _ _
    | ⟨1, _⟩ => exact (rhs_lane_1 _ _).trans hk)
  rw [er, column_apply, rowSq_apply]
  show Ideal.ofBits .f32 0x3F800000#32 * _ = _
  rw [Ideal.ofBits_one_f32]

/-- The tile's entry at `(r, j)` is the expanded-square distance of row `r` of the first block and row `j` of the second. -/
theorem tileDist_apply (x0 x1 : FVec Ideal S512x3 .f32) (r j : Fin 512) :
    tileDist (F := Ideal) x0 x1 (ix2 r j) = distExp (fun k => x0 (ix2 r k)) (fun k => x1 (ix2 j k)) := by
  unfold tileDist distExp
  show Ideal.sqrt (max ((broadcastTo S512x512 (shapeCast S512x1 (rowSq (F := Ideal) x0) shapeCasts_S512_S512x1) broadcasts_S512x1_S512x512 (ix2 r j)
      + laneNorm (F := Ideal) x1 (ix2 r j)) - Ideal.ofBits .f32 0x40000000#32 * gram (F := Ideal) x0 x1 (ix2 r j)) (Ideal.ofBits .f32 0x00000000#32)) = _
  rw [lanes_apply, column_apply, rowSq_apply, laneNorm_apply, gram_apply, ofBits_two_f32, Ideal.ofBits_zero_f32]

/-- The column minimum of a 512 × 512 array from `+∞`, by its universal property. -/
theorem le_colMin_iff (src : FVec Ideal S512x512 .f32) (j : Fin 512) (z : EReal) :
    z ≤ multiReduction .minimumf [0] S512 src 0x7F800000#32 reduces_S512x512_S512 (.inl rfl) rfl (ix1 j)
      ↔ ∀ r : Fin 512, z ≤ src (ix2 r j) := by
  have e : multiReduction .minimumf [0] S512 src 0x7F800000#32 reduces_S512x512_S512 (.inl rfl) rfl (ix1 j)
      = (Finset.univ : Finset (Fin (S512x512.size 0))).fold (FloatOps.minimumf (F := Ideal) (φ := .f32)) (FloatOps.ofBits .f32 0x7F800000#32)
          (src ∘ reduces_S512x512_S512.lift (ix1 j)) :=
    (multiReduction_minimumf_eq_fold src 0x7F800000#32 reduces_S512x512_S512 (.inl rfl) rfl (ix1 j)).trans
      (reduces_S512x512_S512.fold_filter_drop_single _ _ src (ix1 j))
  rw [e]
  refine (le_fold_minimumf_iff _ _ _ z).trans ?_
  constructor
  · intro h r
    exact le_of_le_of_eq (h.2 r (Finset.mem_univ _)) (congrArg src (lift_row reduces_S512x512_S512 j r))
  · intro h
    refine ⟨?_, fun r _ => ?_⟩
    · show z ≤ Ideal.ofBits .f32 0x7F800000#32
      rw [ofBits_inf_f32]; exact le_top
    · exact le_of_le_of_eq (h r) (congrArg src (lift_row reduces_S512x512_S512 j r)).symm

/-- THE STORED VALUE, by its universal property: `z` is below lane `j` of what the body stores iff it is below what the
    block held there before and below the distance of every row of the first block to row `j` of the second. -/
theorem le_pay2_iff (x0 x1 : FVec Ideal S512x3 .f32) (prev : FVec Ideal S512 .f32) (j : Fin 512) (z : EReal) :
    z ≤ k0_pay2 (F := Ideal) x0 x1 prev (ix1 j)
      ↔ z ≤ prev (ix1 j) ∧ ∀ r : Fin 512, z ≤ distExp (fun k => x0 (ix2 r k)) (fun k => x1 (ix2 j k)) := by
  rw [pay2_eq]
  show z ≤ min (shapeCast S512 prev shapeCasts_S512_S512 (ix1 j)) _ ↔ _
  rw [le_min_iff, shapeCast_self, le_colMin_iff]
  simp only [tileDist_apply]

end Cert.KernelIdeal.TileMin

end
-- ==== Proof.CaseValues.lean ====
/-
  What the body leaves in the output block, case by case.

  At a grid point whose row-tile coordinate is 0 the body first stores `+∞` over the whole output block, reads it
  back, and stores the update of that: the block ends at `update (+∞ block)`. At every other point it reads what the
  point before left and stores the update of that: `update (previous)`. The update is the stored vector of TileMin.lean.
-/
import proofs.«126578_j16741782520028_1_alg».proof.Proof.Gen.KernelIdeal.Frame
import Idealize.ShloMosaic.Lib.Pipeline.Value
import Idealize.ShloMosaic.Lib.Tactic

noncomputable section

namespace Cert.KernelIdeal.CaseValues

open Idealize.ShloMosaic Idealize.ShloMosaic.TcCoe Idealize.SL.Sem Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- A point that does not reset: the block, holding `xo`, ends at the update of `xo` by the two input blocks. -/
theorem out_B (c : Dev nD) (i : grid0.Coords) (a2 : Memref sig .tc .vmem S512x3 .f32) (h2 : a2.IsWhole)
    (a3 : Memref sig .tc .vmem S512x3 .f32) (h3 : a3.IsWhole) (a4 : Memref sig .tc .vmem S512 .f32) (h4 : a4.IsWhole)
    (hc : ¬cond0_0 i) (x0 x1 : Vec F S512x3 .f32) (xo : Vec F S512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz1]
  simp only [View.readAt_eq_ld, h2.read_unread, h3.read_unread, h4.read_unread, View.ld_unit_zero (S := S512x3) hz2,
    View.ld_unit_zero (S := S512) hz1]

/-- A point that resets: the block ends at the update of the all-`+∞` block. -/
theorem out_A (c : Dev nD) (i : grid0.Coords) (a2 : Memref sig .tc .vmem S512x3 .f32) (h2 : a2.IsWhole)
    (a3 : Memref sig .tc .vmem S512x3 .f32) (h3 : a3.IsWhole) (a4 : Memref sig .tc .vmem S512 .f32) (h4 : a4.IsWhole)
    (hc : cond0_0 i) (x0 x1 : Vec F S512x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S512) hz1]
  simp only [View.readAt_eq_ld, h2.read_unread, h3.read_unread, View.ld_unit_zero (S := S512x3) hz2,
    View.readCov_unit_zero (S := S512) _ hz1]

end Cert.KernelIdeal.CaseValues

end
-- ==== Proof.RunningMin.lean ====
/-
  The running minimum across the grid.

  The grid runs the column tile `J = n / 16` outermost and the row tile `I = n % 16` innermost. Write `pd i j` for the
  (expanded-square) distance of point `i` of the first argument to point `j` of the second. After grid point `n` the
  output's staging block holds, at lane `j`, the greatest lower bound of `pd i (512·J + j)` over the rows
  `i < 512·(I + 1)` seen so far in this column tile: a reset at `I = 0` starts it from `+∞`, every other point takes
  the minimum of what was there with the new tile's column minimum. The invariant is stated by the universal property
  (`z` is below the lane iff `z` is below every such `pd`), so no order of taking minima appears, and is proved by
  induction on the point.
-/
import proofs.«126578_j16741782520028_1_alg».proof.Proof.Gen.KernelIdeal.Frame
import proofs.«126578_j16741782520028_1_alg».proof.Proof.TileMin
import proofs.«126578_j16741782520028_1_alg».proof.Proof.CaseValues

noncomputable section

namespace Cert.KernelIdeal.RunningMin

open Idealize.ShloMosaic Idealize.ShloMosaic.TcCoe Idealize.ShloMosaic.ValueIdx Idealize.SL.Sem
open Cert.KernelIdeal Cert.KernelIdeal.Gen Cert.PairDist Cert.KernelIdeal.TileMin Cert.KernelIdeal.CaseValues

variable (m : (ℓ : Loc nD τ sig) → Buf (Elt Ideal) ℓ)

/-- The two point clouds as the region finds them, and their blocks at a grid point, at their literal types. -/
abbrev pts (c : Dev nD) : FVec Ideal S8192x3 .f32 := V m c main_arg0
abbrev qts (c : Dev nD) : FVec Ideal S8192x3 .f32 := V m c main_arg1
abbrev ptsBlk (c : Dev nD) (t : Fin cfg0.N) : FVec Ideal S512x3 .f32 := iblk m c 0 t
abbrev qtsBlk (c : Dev nD) (t : Fin cfg0.N) : FVec Ideal S512x3 .f32 := iblk m c 1 t

/-- The distance of point `i` of the first cloud to point `j` of the second, in the expanded-square spelling. -/
def pd (c : Dev nD) (i j : Fin 8192) : EReal :=
  distExp (fun k => pts m c (ix2 i k)) (fun k => qts m c (ix2 j k))

theorem N256 : cfg0.N = 256 := N_0

/-- Row `r` of the row tile of point `n`, and lane `j` of its column tile, as points of the clouds. -/
def rowOf (n : ℕ) (r : Fin 512) : Fin 8192 := ⟨512 * (n % 16) + r.val, by have := r.isLt; omega⟩
def colOf (n : ℕ) (hn : n < cfg0.N) (j : Fin 512) : Fin 8192 :=
  ⟨512 * (n / 16) + j.val, by have hN : n < 256 := lt_of_lt_of_eq hn N256; have := j.isLt; omega⟩

/-- The windows' block indices over the grid: the first cloud moves with the inner coordinate, the second with the outer. -/
theorem idx_pts : ∀ t : Fin cfg0.N, win0_0.index t 0 = t.val % 16 ∧ win0_0.index t 1 = 0 :=
  (by decide +kernel : ∀ t : Fin grid0.N, win0_0.index t 0 = t.val % 16 ∧ win0_0.index t 1 = 0)
theorem idx_qts : ∀ t : Fin cfg0.N, win0_1.index t 0 = t.val / 16 ∧ win0_1.index t 1 = 0 :=
  (by decide +kernel : ∀ t : Fin grid0.N, win0_1.index t 0 = t.val / 16 ∧ win0_1.index t 1 = 0)

/-- The first cloud's block at a point is its rows `512·I …`. -/
theorem ptsBlk_apply (c : Dev nD) (t : Fin cfg0.N) (r : Fin 512) (k : Fin 3) :
    ptsBlk m c t (ix2 r k) = pts m c (ix2 (rowOf t.val r) k) := by
  show iblk m c 0 t (ix2 r k) = V m c main_arg0 (ix2 (rowOf t.val r) k)
  unfold iblk
  rw [View.read_apply]
  show V m c main_arg0 _ = V m c main_arg0 _
  congr 1
  funext a; apply Fin.ext
  match a with
  | ⟨0, _⟩ => show win0_0.index t 0 * 512 + 1 * r.val = 512 * (t.val % 16) + r.val; rw [(idx_pts t).1]; omega
  | ⟨1, _⟩ => show win0_0.index t 1 * 3 + 1 * k.val = k.val; rw [(idx_pts t).2]; omega

/-- The second cloud's block at a point is its rows `512·J …`. -/
theorem qtsBlk_apply (c : Dev nD) (t : Fin cfg0.N) (j : Fin 512) (k : Fin 3) :
    qtsBlk m c t (ix2 j k) = qts m c (ix2 (colOf t.val t.isLt j) k) := by
  show iblk m c 1 t (ix2 j k) = V m c main_arg1 (ix2 (colOf t.val t.isLt j) k)
  unfold iblk
  rw [View.read_apply]
  show V m c main_arg1 _ = V m c main_arg1 _
  congr 1
  funext a; apply Fin.ext
  match a with
  | ⟨0, _⟩ => show win0_1.index t 0 * 512 + 1 * j.val = 512 * (t.val / 16) + j.val; rw [(idx_qts t).1]; omega
  | ⟨1, _⟩ => show win0_1.index t 1 * 3 + 1 * k.val = k.val; rw [(idx_qts t).2]; omega

/-- One update, in the clouds' own indices: below the updated lane iff below the old lane and below the new tile's
    distances to the lane's point. -/
theorem le_update_iff (c : Dev nD) (t : Fin cfg0.N) (prev : FVec Ideal S512 .f32) (j : Fin 512) (z : EReal) :
    z ≤ k0_pay2 (F := Ideal) (ptsBlk m c t) (qtsBlk m c t) prev (ix1 j)
      ↔ z ≤ prev (ix1 j) ∧ ∀ r : Fin 512, z ≤ pd m c (rowOf t.val r) (colOf t.val t.isLt j) := by
  refine (le_pay2_iff (ptsBlk m c t) (qtsBlk m c t) prev j z).trans ?_
  unfold pd
  simp only [ptsBlk_apply, qtsBlk_apply]

/-- What the staging block holds after a resetting point, and after any other. -/
theorem at_reset (c : Dev nD) (t : Fin cfg0.N) (h0 : t.val % 16 = 0) :
    outsAt0 m c t.val t.isLt = k0_pay2 (F := Ideal) (ptsBlk m c t) (qtsBlk m c t) (k0_pay1 (F := Ideal)) :=
  (outsAt0_A m c t h0).trans
    (out_A c (grid0.coords t) (ms0_0 t) (hs0_0 t) (ms0_1 t) (hs0_1 t) (ms0_2 t) (hs0_2 t) ((hcond0_0 t).mpr h0) (iblk m c 0 t) (iblk m c 1 t))
theorem at_carry (c : Dev nD) (t : Fin cfg0.N) (h0 : ¬t.val % 16 = 0) :
    outsAt0 m c t.val t.isLt = k0_pay2 (F := Ideal) (ptsBlk m c t) (qtsBlk m c t)
      (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t) (fun h => h0 ((hcond0_0 t).mp h)) (iblk m c 0 t) (iblk m c 1 t) _)

/-- Rows below `512·(I + 1)` are the rows below `512·I` and the rows of tile `I`. -/
theorem forall_rows_succ (P : Fin 8192 → Prop) (n : ℕ) :
    (∀ i : Fin 8192, i.val < 512 * (n % 16 + 1) → P i)
      ↔ (∀ i : Fin 8192, i.val < 512 * (n % 16) → P i) ∧ ∀ r : Fin 512, P (rowOf n r) := by
  constructor
  · intro h
    exact ⟨fun i hi => h i (by omega), fun r => h (rowOf n r) (by show 512 * (n % 16) + r.val < _; have := r.isLt; omega)⟩
  · rintro ⟨h1, h2⟩ i hi
    by_cases hlt : i.val < 512 * (n % 16)
    · exact h1 i hlt
    · have e : i = rowOf n ⟨i.val - 512 * (n % 16), by omega⟩ := Fin.ext (by show i.val = 512 * (n % 16) + (i.val - 512 * (n % 16)); omega)
      rw [e]; exact h2 _

/-- THE INVARIANT: after point `n`, lane `j` of the staging block is the greatest lower bound of the distances from the
    rows seen so far in this column tile to the lane's point. -/
theorem le_outsAt_iff (c : Dev nD) : ∀ (n : ℕ) (hn : n < cfg0.N) (j : Fin 512) (z : EReal),
    z ≤ outsAt0 m c n hn (ix1 j) ↔ ∀ i : Fin 8192, i.val < 512 * (n % 16 + 1) → z ≤ pd m c i (colOf n hn j)
  | 0, hn, j, z => by
    rw [at_reset m c ⟨0, hn⟩ rfl, le_update_iff m c ⟨0, hn⟩ _ j z, forall_rows_succ]
    refine and_congr_left' ?_
    constructor
    · intro _ i hi; exact absurd hi (by omega)
    · intro _; show z ≤ Ideal.ofBits .f32 0x7F800000#32; rw [ofBits_inf_f32]; exact le_top
  | n + 1, hn, j, z => by
    have hN : n + 1 < 256 := lt_of_lt_of_eq hn N256
    by_cases h0 : (n + 1) % 16 = 0
    · rw [at_reset m c ⟨n + 1, hn⟩ h0, le_update_iff m c ⟨n + 1, hn⟩ _ j z, forall_rows_succ]
      refine and_congr_left' ?_
      constructor
      · intro _ i hi; exact absurd hi (by omega)
      · intro _; show z ≤ Ideal.ofBits .f32 0x7F800000#32; rw [ofBits_inf_f32]; exact le_top
    · rw [at_carry m c ⟨n + 1, hn⟩ h0, le_update_iff m c ⟨n + 1, hn⟩ _ j z, forall_rows_succ]
      refine and_congr_left' ?_
      show z ≤ outsAt0 m c n _ (ix1 j) ↔ _
      rw [le_outsAt_iff c n (Nat.lt_of_succ_lt hn) j z]
      have ec : colOf n (Nat.lt_of_succ_lt hn) j = colOf (n + 1) hn j := Fin.ext (by show 512 * (n / 16) + j.val = 512 * ((n + 1) / 16) + j.val; omega)
      have er : (n + 1) % 16 = n % 16 + 1 := by omega
      rw [ec, er]

end Cert.KernelIdeal.RunningMin

end
-- ==== Proof.ColumnMin.lean ====
/-
  The result array of the pallas_call: every point of the second cloud's distance to its nearest point of the first.

  Output block `J` is written back once, after the last row tile (`I = 15`) of its column tile; by then the running
  minimum has seen all `512·16 = 8192` rows, so lane `j` holds the greatest lower bound of `pd i (512·J + j)` over ALL `i`.
  The sixteen written-back blocks tile the array of 8192, so the array ends at `nearest`: `j ↦ ⨅ i, pd i j`.
-/
import proofs.«126578_j16741782520028_1_alg».proof.Proof.RunningMin
import Idealize.ShloMosaic.Lib.Pipeline.Value

noncomputable section

namespace Cert.KernelIdeal.ColumnMin

open Idealize.ShloMosaic Idealize.ShloMosaic.TcCoe Idealize.ShloMosaic.ValueIdx Idealize.SL.Sem
open Cert.KernelIdeal Cert.KernelIdeal.Gen Cert.PairDist Cert.KernelIdeal.RunningMin
open Idealize.ShloMosaic.Pipeline (Dat)

variable (m : (ℓ : Loc nD τ sig) → Buf (Elt Ideal) ℓ)

/-- For each point `j` of the second cloud, the greatest lower bound of its distances to the points of the first. -/
def nearest (c : Dev nD) : FVec Ideal S8192 .f32 := fun j => ⨅ i : Fin 8192, pd m c i (j 0)

/-- The same as contents of the result array. -/
abbrev result (c : Dev nD) : Buf (Elt Ideal) ((c : Thread nD τ).loc main_v0) := nearest m c

/-- The output's block index is the outer grid coordinate. -/
theorem idx_out : ∀ t : Fin cfg0.N, win0_2.index t 0 = t.val / 16 :=
  (by decide +kernel : ∀ t : Fin grid0.N, win0_2.index t 0 = t.val / 16)

/-- What a flushing point writes back is its block of `nearest`. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  show (cfg0.win 2).cut (grid0.coords t) ((dats m 0 c).after 2 t) = _
  rw [after0_2]
  funext y
  obtain ⟨j, rfl⟩ : ∃ j : Fin 512, y = ix1 j := ⟨y 0, eq_ix1 y⟩
  show outsAt0 m c t.val t.isLt (ix1 j) = nearest m c (((cfg0.win 2).blk t).view.emb (ix1 j))
  have hemb : ((cfg0.win 2).blk t).view.emb (ix1 j) = ix1 (colOf t.val t.isLt j) := by
    funext a; apply Fin.ext
    match a with
    | ⟨0, _⟩ => show win0_2.index t 0 * 512 + 1 * j.val = 512 * (t.val / 16) + j.val; rw [idx_out t]; omega
  rw [hemb]
  show _ = ⨅ i : Fin 8192, pd m c i (colOf t.val t.isLt j)
  refine eq_of_forall_le_iff fun z => ?_
  rw [le_outsAt_iff m c t.val t.isLt j z, le_iInf_iff]
  constructor
  · intro h i; exact h i (by have := i.isLt; omega)
  · intro h i _; exact h i

/-- Every index of the array lies in the block of the flushing point of its column tile. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hi : (i 0).val < 8192 := (i 0).isLt
  have hN : cfg0.N = 256 := N_0
  have ht : 16 * ((i 0).val / 512) + 15 < cfg0.N := by rw [hN]; omega
  refine ⟨⟨16 * ((i 0).val / 512) + 15, ht⟩, (flush0_2 _).mpr (by show (16 * ((i 0).val / 512) + 15) % 16 = 15; omega), ?_⟩
  show i ∈ ((View.whole main_v0).slice (win0_2.rect ⟨16 * ((i 0).val / 512) + 15, ht⟩)).set
  rw [View.set_slice_whole, Rect.mem_set_unit]
  intro a
  match a with
  | ⟨0, _⟩ =>
    show win0_2.index ⟨16 * ((i 0).val / 512) + 15, ht⟩ 0 * 512 ≤ (i 0).val
      ∧ (i 0).val < win0_2.index ⟨16 * ((i 0).val / 512) + 15, ht⟩ 0 * 512 + 512
    rw [idx_out ⟨16 * ((i 0).val / 512) + 15, ht⟩]
    show (16 * ((i 0).val / 512) + 15) / 16 * 512 ≤ (i 0).val ∧ (i 0).val < (16 * ((i 0).val / 512) + 15) / 16 * 512 + 512
    omega

/-- THE RESULT ARRAY after the run. -/
theorem final (c : Dev nD) : (dats m 0 c).arrAt 2 cfg0.N = result m c :=
  (dats m 0 c).arrAt_eq_of_cover 2 (result m c) (flushed_eq m c) (covered c)

end Cert.KernelIdeal.ColumnMin

end
-- ==== Proof.Loss.lean ====
/-
  The loss both programs compute from the two clouds, free of any program.

  `nearestBy d a b` is, for each point `j` of cloud `b`, the greatest lower bound over the points `i` of cloud `a` of
  `d (aᵢ) (bⱼ)`. `halfLoss g` is the host's mean of such a vector: its sum from `0` divided by `8192`. One program doubles
  the half-loss, the other adds it to itself: the same extended real. And on clouds of REAL entries the two spellings of
  the distance give one `nearestBy`.
-/
import proofs.«126578_j16741782520028_1_alg».proof.Proof.Distance
import Idealize.ShloMosaic.Lib.ValueIdx

noncomputable section

namespace Cert.PairDist

open Idealize.ShloMosaic Idealize.ShloMosaic.ValueIdx

/-- A cloud of 8192 points of 3 coordinates, and a value per point, at the ideal instance. -/
abbrev Cloud : Type := FVec Ideal ⟨2, ![8192, 3]⟩ .f32
abbrev PerPoint : Type := FVec Ideal ⟨1, ![8192]⟩ .f32

/-- For each point of `b`, the greatest lower bound of its `d`-distances to the points of `a`. -/
def nearestBy (d : (Fin 3 → EReal) → (Fin 3 → EReal) → EReal) (a b : Cloud) : PerPoint :=
  fun j => ⨅ i : Fin 8192, d (fun k => a (ix2 i k)) (fun k => b (ix2 (j 0) k))

/-- On clouds whose entries are all real the expanded-square distance and the plain one give the same nearest distances. -/
theorem nearestBy_distExp_eq (a b : Cloud) (ha : ∀ i, ∃ r : ℝ, a i = (r : EReal)) (hb : ∀ i, ∃ r : ℝ, b i = (r : EReal)) :
    nearestBy distExp a b = nearestBy dist a b := by
  choose fa hfa using ha
  choose fb hfb using hb
  funext j
  unfold nearestBy
  refine iInf_congr fun i => ?_
  have ea : (fun k : Fin 3 => a (ix2 i k)) = fun k => ((fa (ix2 i k) : ℝ) : EReal) := funext fun k => hfa _
  have eb : (fun k : Fin 3 => b (ix2 (j 0) k)) = fun k => ((fb (ix2 (j 0) k) : ℝ) : EReal) := funext fun k => hfb _
  rw [ea, eb]
  exact distExp_eq_dist _ _

/-- The host's mean of a per-point vector: its sum from zero, divided by 8192. -/
def halfLoss (g : PerPoint) (h' : (⟨1, ![8192]⟩ : Shape).ReducesTo [0] ⟨0, ![]⟩) (hu : 0 < (⟨0, ![]⟩ : Shape).numel) :
    FVec Ideal ⟨0, ![]⟩ .f32 :=
  Host.divf (F := Ideal) (Host.reduceAdd (F := Ideal) g (constant (F := Ideal) ⟨0, ![]⟩ .f32 0x00000000#32) h' hu)
    (constant (F := Ideal) ⟨0, ![]⟩ .f32 0x46000000#32)

/-- Doubling a scalar on the host is adding it to itself. -/
theorem twice_eq_add_self (y : FVec Ideal ⟨0, ![]⟩ .f32) :
    mulf (constant (F := Ideal) ⟨0, ![]⟩ .f32 0x40000000#32) y = addf y y := by
  funext i
  show Ideal.ofBits .f32 0x40000000#32 * y i = y i + y i
  rw [ofBits_two_f32, two_mul_eq_add_self]

end Cert.PairDist

end
-- ==== Proof.KernelLoss.lean ====
/-
  The idealized kernel's run, read: its result is twice the half-loss of the nearest distances (expanded-square
  spelling) of the two argument clouds, and the arguments are unchanged.

  After the pallas_call the host sums the result array from zero, divides by 8192 and doubles: the three lines after
  the region, applied to the array the region leaves (ColumnMin.lean's `nearest`).
-/
import proofs.«126578_j16741782520028_1_alg».proof.Proof.ColumnMin
import proofs.«126578_j16741782520028_1_alg».proof.Proof.Loss
import Idealize.ShloMosaic.Lib.StableHlo.Run

noncomputable section

namespace Cert.KernelIdeal.KernelLoss

open Idealize.ShloMosaic Idealize.ShloMosaic.TcCoe Idealize.ShloMosaic.ValueIdx Idealize.SL.Sem Idealize.ShloMosaic.StableHlo
open Cert.KernelIdeal Cert.KernelIdeal.Gen Cert.PairDist Cert.KernelIdeal.RunningMin Cert.KernelIdeal.ColumnMin
open Idealize.ShloMosaic.Pipeline (Dat)

variable (m : (ℓ : Loc nD τ sig) → Buf (Elt Ideal) ℓ) (ρ : Dev nD → PrngReg)

/-- The region's result array is `nearestBy distExp` of the two argument arrays. -/
theorem nearest_eq (c : Dev nD) :
    nearest m c = nearestBy distExp (m ((c : Thread nD τ).loc main_arg0)) (m ((c : Thread nD τ).loc main_arg1)) := rfl

/-- The program's result from the region's result array. -/
theorem tail_eq (c : Dev nD) :
    Pipeline.afterTail₀ cfgs (dats m) 0 (V0 m) [hostOps1] c main_v3
      = mulf (constant (F := Ideal) S_ .f32 0x40000000#32) (halfLoss (nearest m c) reducesTo_S8192_S_d0 h_S_) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0)
      = nearest m c :=
    (Pipeline.withArrays_arr spec0 launch0.win.arr_inj c _ _ 2).trans (final m c)
  rw [e]
  rfl

/-- THE RUN, READ: every weakly fair execution ends with the result at twice the half-loss of the nearest distances
    (expanded-square spelling) of the argument clouds, and the arguments unchanged. -/
theorem run : θ_run defs (onTc (τ := τ) (main (F := Ideal))) ⟨m, fun _ => 0, ρ⟩ fun r => ∀ c : Dev nD,
      r.2.mem ((c.tc : Thread nD τ).loc main_v3)
        = mulf (constant (F := Ideal) S_ .f32 0x40000000#32)
            (halfLoss (nearestBy distExp (m ((c.tc : Thread nD τ).loc main_arg0)) (m ((c.tc : Thread nD τ).loc main_arg1)))
              reducesTo_S8192_S_d0 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelLoss

end
-- ==== Proof.RefLoss.lean ====
/-
  The idealized reference, read: its result is the half-loss of the nearest distances (plain spelling) added to itself.

  The reference forms all 8192 × 8192 differences, squares and sums them over the 3 coordinates (from zero), roots,
  takes the minimum down the first axis from `+∞` — twice, into two equal vectors —, takes each one's mean, and adds the
  two means.
-/
import proofs.«126578_j16741782520028_1_alg».proof.Proof.Gen.ReferenceIdeal.Read
import proofs.«126578_j16741782520028_1_alg».proof.Proof.Loss
import Idealize.ShloMosaic.PureOps.Reduce

noncomputable section

namespace Cert.ReferenceIdeal.RefLoss

open Idealize.ShloMosaic Idealize.ShloMosaic.ValueIdx
open Cert.ReferenceIdeal Cert.ReferenceIdeal.Gen Cert.ReferenceIdeal.Read Cert.PairDist

/-- The rooted sum of squared differences at `(i, j)` is the distance of point `i` of the first cloud to point `j` of the second. -/
theorem dist_apply (x0 x1 : FVec Ideal S8192x3 .f32) (i j : Fin 8192) :
    val_main_v7 (F := Ideal) x0 x1 (ix2 i j) = PairDist.dist (fun k => x0 (ix2 i k)) (fun k => x1 (ix2 j k)) := by
  rw [val_main_v7_apply, val_main_v6_apply]
  unfold PairDist.dist
  rw [Ideal.hostUnary_sqrt_def]
  refine congrArg Ideal.sqrt ?_
  rw [val_main_cst_apply, Ideal.ofBits_def, Ideal.ofBits_zero_f32]
  refine congrArg (0 + ·) (Finset.sum_congr rfl fun k _ => ?_)
  rw [val_main_v5_apply, val_main_v4_apply, val_main_v2_apply, val_main_v3_apply, val_main_v0_apply, val_main_v1_apply]
  have e0 : idx_main_v0 (idx_main_v2 (idx_main_v6 (ix2 i j) k)) = ix2 i k := funext fun a => Fin.ext (by
    match a with
    | ⟨0, _⟩ => rfl
    | ⟨1, _⟩ => rfl)
  have e1 : idx_main_v1 (idx_main_v3 (idx_main_v6 (ix2 i j) k)) = ix2 j k := funext fun a => Fin.ext (by
    match a with
    | ⟨0, _⟩ => rfl
    | ⟨1, _⟩ => rfl)
  rw [e0, e1]
  rfl

/-- Inserting row coordinate `i` before column `j`: the index `(i, j)`. -/
theorem lift_row (h : (⟨2, ![8192, 8192]⟩ : Shape).Reduces [0] ⟨1, ![8192]⟩) (j i : Fin 8192) :
    h.lift (ix1 j) i = ix2 i j := by
  funext a; apply Fin.ext
  match a with
  | ⟨0, _⟩ => rfl
  | ⟨1, _⟩ => rfl

/-- The minimum down the first axis, from `+∞`, at column `j`: the greatest lower bound of the column's distances. -/
theorem colMin_apply (x0 x1 : FVec Ideal S8192x3 .f32) (j : Fin 8192) :
    Host.reduce FloatOps.minimumf (val_main_v7 (F := Ideal) x0 x1) (constant (F := Ideal) S_ .f32 0x7F800000#32)
        reducesTo_S8192x8192_S8192_d0 h_S_ (ix1 j)
      = ⨅ i : Fin 8192, PairDist.dist (fun k => x0 (ix2 i k)) (fun k => x1 (ix2 j k)) := by
  have hR : S8192x8192.Reduces [0] S8192 := by decide
  rw [Host.reduce_eq_fold_single FloatOps.minimumf _ _ reducesTo_S8192x8192_S8192_d0 hR h_S_ (ix1 j)]
  refine eq_of_forall_le_iff fun z => ?_
  refine (le_fold_minimumf_iff _ _ _ z).trans ?_
  rw [le_iInf_iff]
  constructor
  · intro h i
    exact le_of_le_of_eq (h.2 i (Finset.mem_univ _))
      ((congrArg (val_main_v7 (F := Ideal) x0 x1) (lift_row hR j i)).trans (dist_apply x0 x1 i j))
  · intro h
    refine ⟨?_, fun i _ => ?_⟩
    · show z ≤ Ideal.ofBits .f32 0x7F800000#32
      rw [ofBits_inf_f32]; exact le_top
    · exact le_of_le_of_eq (h i)
        ((congrArg (val_main_v7 (F := Ideal) x0 x1) (lift_row hR j i)).trans (dist_apply x0 x1 i j)).symm

/-- Both minimum vectors are the nearest distances. -/
theorem v8_eq (x0 x1 : FVec Ideal S8192x3 .f32) : val_main_v8 (F := Ideal) x0 x1 = nearestBy PairDist.dist x0 x1 := by
  funext y
  obtain ⟨j, rfl⟩ : ∃ j : Fin 8192, y = ix1 j := ⟨y 0, eq_ix1 y⟩
  unfold val_main_v8 val_main_cst_0
  exact colMin_apply x0 x1 j
theorem v9_eq (x0 x1 : FVec Ideal S8192x3 .f32) : val_main_v9 (F := Ideal) x0 x1 = nearestBy PairDist.dist x0 x1 := by
  funext y
  obtain ⟨j, rfl⟩ : ∃ j : Fin 8192, y = ix1 j := ⟨y 0, eq_ix1 y⟩
  unfold val_main_v9 val_main_cst_1
  exact colMin_apply x0 x1 j

/-- THE REFERENCE'S RESULT: the half-loss of the nearest distances, added to itself. -/
theorem result_eq (x0 x1 : FVec Ideal S8192x3 .f32) :
    val_main_v14 (F := Ideal) x0 x1
      = addf (halfLoss (nearestBy PairDist.dist x0 x1) reducesTo_S8192_S_d0 h_S_) (halfLoss (nearestBy PairDist.dist x0 x1) reducesTo_S8192_S_d0 h_S_) := by
  unfold val_main_v14 val_main_v11 val_main_v13 val_main_v10 val_main_v12
  rw [v8_eq, v9_eq]
  rfl

end Cert.ReferenceIdeal.RefLoss

end
-- ==== Proof.Finite.lean ====
/-
  The precondition, read back: every entry of both point clouds is a real number.
-/
import proofs.«126578_j16741782520028_1_alg».proof.Pre_finite_inputs
import proofs.«126578_j16741782520028_1_alg».proof.Proof.Gen.Pre_finite_inputs
import proofs.«126578_j16741782520028_1_alg».proof.Proof.Distance
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs Cert.Pre_finite_inputs.Gen

instance : Subsingleton S_.Idx := ⟨fun a b => funext fun d => d.elim0⟩

/-- One cloud: if the all-reduce of `|x| < +∞` is true, every entry is a real. -/
theorem all_real (x : FVec Ideal S8192x3 .f32)
    (hx : Host.reduce IntOp.andi (cmpf .olt (Host.absf x) (broadcastInDim S8192x3 ![] bcast_S_S8192x3 (constant (F := Ideal) S_ .f32 0x7F800000#32)))
      (constantI S_ 1 1#1) reducesTo_S8192x3_S_d0_1 h_S_ ValueIdx.ix0 = 1#1) (i : S8192x3.Idx) : ∃ r : ℝ, x i = (r : EReal) :=
  Cert.ExtendedReal.real_of_abs_lt_inf (x i) (Host.reduce_andi_all _ _ _ _ _ hx i)

/-- The precondition gives both clouds real entries. -/
theorem finite_of_pre (a b : FVec Ideal S8192x3 .f32) (h : fn (F := Ideal) a b = fun _ => 1#1) :
    (∀ i, ∃ r : ℝ, a i = (r : EReal)) ∧ (∀ i, ∃ r : ℝ, b i = (r : EReal)) := by
  have h0 := congrFun h ValueIdx.ix0
  dsimp only [fn] at h0
  obtain ⟨ha, hb⟩ := IntOp.andi_eq_one.1 h0
  exact ⟨all_real a ha, all_real b hb⟩

end Cert.Pre_finite_inputs.Decode

end
-- ==== Proof.lean ====
/-
  Twice the mean nearest-neighbour distance between two clouds of 8192 points in 3 dimensions: the tiled kernel against
  the all-pairs reference, over the extended reals.

  Both programs compute, for every point `j` of the second cloud, the distance to its nearest point of the first
  cloud, average these 8192 numbers, and double the average (the kernel multiplies by 2, the reference adds the mean
  to itself; `2·x = x + x` on every extended real).

  The kernel walks a 16 × 16 grid of 512 × 512 tiles, column tile outermost. In a tile it forms the squared distances by
  the expansion `|a|² + |b|² - 2⟨a,b⟩` (the cross term and the lane-wise copy of `|b|²` as contractions), clamps at zero,
  takes roots and the minimum down the tile's rows, and folds that into a running minimum kept in the output block,
  which is reset to `+∞` at the first row tile and written back after the last. By induction over the grid points the
  block holds, at each point, the greatest lower bound of the distances seen so far in its column tile (stated by the
  universal property of a minimum, so no fold order is compared); after the sixteenth row tile that is the bound over all
  8192 rows, and the sixteen written-back blocks tile the result array.

  The reference forms the differences, squares, sums, roots and takes the minimum down all rows at once. The two
  spellings of the squared distance agree on REAL coordinates (`|a|² + |b|² - 2⟨a,b⟩ = |a - b|² ≥ 0`, so the clamp is idle);
  this is the one place the precondition — every input finite — is used: with an infinite coordinate the expansion
  meets `∞ - ∞`.

  The frames: the two kernels' are the generated frame certificates; the reference's is its generated run with the
  result dropped. The idealization rewrote nothing, so `preserves` has nothing to state.
-/
import proofs.«126578_j16741782520028_1_alg».proof.Defs
import proofs.«126578_j16741782520028_1_alg».proof.Proof.Gen.Kernel
import proofs.«126578_j16741782520028_1_alg».proof.Proof.Gen.Kernel.Skeleton
import proofs.«126578_j16741782520028_1_alg».proof.Proof.Gen.Kernel.Launch
import proofs.«126578_j16741782520028_1_alg».proof.Proof.Gen.Kernel.Points
import proofs.«126578_j16741782520028_1_alg».proof.Proof.Gen.Kernel.Frame
import proofs.«126578_j16741782520028_1_alg».proof.Proof.Gen.KernelIdeal
import proofs.«126578_j16741782520028_1_alg».proof.Proof.Gen.KernelIdeal.Skeleton
import proofs.«126578_j16741782520028_1_alg».proof.Proof.Gen.KernelIdeal.Launch
import proofs.«126578_j16741782520028_1_alg».proof.Proof.Gen.KernelIdeal.Points
import proofs.«126578_j16741782520028_1_alg».proof.Proof.Gen.KernelIdeal.Frame
import proofs.«126578_j16741782520028_1_alg».proof.Proof.Gen.ReferenceIdeal
import proofs.«126578_j16741782520028_1_alg».proof.Proof.Gen.Pre_finite_inputs
import proofs.«126578_j16741782520028_1_alg».proof.Proof.Gen.ReferenceIdeal.Run
import proofs.«126578_j16741782520028_1_alg».proof.Proof.Gen.ReferenceIdeal.Read
import proofs.«126578_j16741782520028_1_alg».proof.Proof.KernelLoss
import proofs.«126578_j16741782520028_1_alg».proof.Proof.RefLoss
import proofs.«126578_j16741782520028_1_alg».proof.Proof.Finite
import Idealize.ShloMosaic.Adequacy
import Idealize.ShloMosaic.Init

noncomputable section

namespace Cert.Proof

open Idealize.ShloMosaic Idealize.ShloMosaic.TcCoe Idealize.SL.Sem Cert.PairDist

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two clouds, both idealized programs end at the half-loss of the nearest distances
    added to itself: the kernel's doubling is that sum, and on finite clouds its expanded-square distances are the
    reference's. -/
theorem algebraic : Cert.algebraic_KernelIdeal_ReferenceIdeal := by
  intro m ρ m' ρ' hpre hagree
  refine ⟨fun c => addf
      (halfLoss (nearestBy PairDist.dist (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
        Cert.KernelIdeal.Gen.reducesTo_S8192_S_d0 Cert.KernelIdeal.Gen.h_S_)
      (halfLoss (nearestBy PairDist.dist (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
        Cert.KernelIdeal.Gen.reducesTo_S8192_S_d0 Cert.KernelIdeal.Gen.h_S_), ?_, ?_⟩
  · refine (θ_run Cert.KernelIdeal.defs _ _).mono (fun _ h c => ⟨(h c).1.trans ?_, (h c).2⟩)
      (Cert.KernelIdeal.KernelLoss.run m ρ)
    obtain ⟨ha, hb⟩ := Cert.Pre_finite_inputs.Decode.finite_of_pre _ _ (hpre c)
    rw [nearestBy_distExp_eq _ _ ha hb]
    exact twice_eq_add_self _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefLoss.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
